-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x32x32 : Shape := ⟨3, ![8192, 32, 32]⟩
abbrev S4096 : Shape := ⟨1, ![4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x32x32 : S_.BroadcastsInDim S8192x32x32 (![] : Fin 0 → Fin S8192x32x32.rank)
  reducesTo_S8192x32x32_S_d0_1_2 : S8192x32x32.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S8192x32x32 .f32) (main_arg2 : FVec F S4096 .f32) (main_arg3 : IVec S8192 32) (main_arg4 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x32x32 .f32 := Host.absf main_arg1
  let main_cst_0 : FVec F S_ .f32 := constant S_ .f32 0x7F800000#32
  let main_v5 : FVec F S8192x32x32 .f32 := broadcastInDim S8192x32x32 ![] bcast_S_S8192x32x32 main_cst_0
  let main_v6 : IVec S8192x32x32 1 := cmpf .olt main_v4 main_v5
  let main_c_1 : IVec S_ 1 := constantI S_ 1 1#1
  let main_v7 : IVec S_ 1 := (fun x v => Host.reduce IntOp.andi x v reducesTo_S8192x32x32_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S8192x32x32 : Shape := ⟨3, ![8192, 32, 32]⟩
abbrev S4096 : Shape := ⟨1, ![4096]⟩
abbrev S8192 : Shape := ⟨1, ![8192]⟩
abbrev S_ : Shape := ⟨0, ![]⟩
abbrev S128x128x32x32 : Shape := ⟨4, ![128, 128, 32, 32]⟩
abbrev S8192x1 : Shape := ⟨2, ![8192, 1]⟩
abbrev S8192x2 : Shape := ⟨2, ![8192, 2]⟩
abbrev S128x32x128x32 : Shape := ⟨4, ![128, 32, 128, 32]⟩
abbrev S4096x4096 : Shape := ⟨2, ![4096, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 32
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x32x32, .f32⟩
  | .hbm, ⟨2, _⟩ => ⟨S4096, .f32⟩
  | .hbm, ⟨3, _⟩ => ⟨S8192, .i32⟩
  | .hbm, ⟨4, _⟩ => ⟨S8192, .i32⟩
  | .hbm, ⟨5, _⟩ => ⟨S_, .f32⟩
  | .hbm, ⟨6, _⟩ => ⟨S128x128x32x32, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x1, .i32⟩
  | .hbm, ⟨23, _⟩ => ⟨S8192x2, .i32⟩
  | .hbm, ⟨24, _⟩ => ⟨S128x128x32x32, .f32⟩
  | .hbm, ⟨25, _⟩ => ⟨S128x32x128x32, .f32⟩
  | .hbm, ⟨26, _⟩ => ⟨S4096x4096, .f32⟩
  | .hbm, ⟨27, _⟩ => ⟨S4096x4096, .f32⟩
  | .hbm, ⟨28, _⟩ => ⟨S8192x4096, .bf16⟩
  | .hbm, ⟨29, _⟩ => ⟨S4096x4096, .bf16⟩
  | .hbm, ⟨30, _⟩ => ⟨S1x4096, .f32⟩
  | .hbm, ⟨31, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S128x128x32x32 : S_.BroadcastsInDim S128x128x32x32 (![] : Fin 0 → Fin S128x128x32x32.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  transposes_S128x128x32x32_S128x32x128x32_0_2_1_3 : S128x128x32x32.Transposes [0, 2, 1, 3] S128x32x128x32
  shapeCasts_S128x32x128x32_S4096x4096 : S128x32x128x32.ShapeCasts S4096x4096
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S128x128x32x32_S8192x2_S8192x32x32_12_01_01_1_wf : ScatterDims.WF S128x128x32x32 S8192x2 S8192x32x32 [1, 2] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S128x128x32x32_S8192x2_S8192x32x32_12_01_01_1 : ScatterDims S128x128x32x32 S8192x2 S8192x32x32 where
  updateWindowDims := [1, 2]
  insertedWindowDims := [0, 1]
  scatterDimsToOperandDims := [0, 1]
  indexVectorDim := 1
  wf := scatter_S128x128x32x32_S8192x2_S8192x32x32_12_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192x32x32 : Shape := ⟨3, ![8192, 32, 32]⟩
abbrev S4096 : Shape := ⟨1, ![4096]⟩
abbrev S8192 : Shape := ⟨1, ![8192]⟩
abbrev S_ : Shape := ⟨0, ![]⟩
abbrev S128x128x32x32 : Shape := ⟨4, ![128, 128, 32, 32]⟩
abbrev S8192x1 : Shape := ⟨2, ![8192, 1]⟩
abbrev S8192x2 : Shape := ⟨2, ![8192, 2]⟩
abbrev S128x32x128x32 : Shape := ⟨4, ![128, 32, 128, 32]⟩
abbrev S4096x4096 : Shape := ⟨2, ![4096, 4096]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x32x32, .f32⟩
  | .hbm, ⟨2, _⟩ => ⟨S4096, .f32⟩
  | .hbm, ⟨3, _⟩ => ⟨S8192, .i32⟩
  | .hbm, ⟨4, _⟩ => ⟨S8192, .i32⟩
  | .hbm, ⟨5, _⟩ => ⟨S_, .f32⟩
  | .hbm, ⟨6, _⟩ => ⟨S128x128x32x32, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x1, .i32⟩
  | .hbm, ⟨23, _⟩ => ⟨S8192x2, .i32⟩
  | .hbm, ⟨24, _⟩ => ⟨S128x128x32x32, .f32⟩
  | .hbm, ⟨25, _⟩ => ⟨S128x32x128x32, .f32⟩
  | .hbm, ⟨26, _⟩ => ⟨S4096x4096, .f32⟩
  | .hbm, ⟨27, _⟩ => ⟨S4096x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S128x128x32x32 : S_.BroadcastsInDim S128x128x32x32 (![] : Fin 0 → Fin S128x128x32x32.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  transposes_S128x128x32x32_S128x32x128x32_0_2_1_3 : S128x128x32x32.Transposes [0, 2, 1, 3] S128x32x128x32
  shapeCasts_S128x32x128x32_S4096x4096 : S128x32x128x32.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S128x128x32x32_S8192x2_S8192x32x32_12_01_01_1_wf : ScatterDims.WF S128x128x32x32 S8192x2 S8192x32x32 [1, 2] [0, 1] [0, 1] 1
  dot_S8192x4096_S4096x4096_S8192x4096_1_0_0_1_n_n_wf : DotDims.WF S8192x4096 S4096x4096 S8192x4096 [1] [0] [0] [1] [] []

variable [Facts₀]

def scatter_S128x128x32x32_S8192x2_S8192x32x32_12_01_01_1 : ScatterDims S128x128x32x32 S8192x2 S8192x32x32 where
  updateWindowDims := [1, 2]
  insertedWindowDims := [0, 1]
  scatterDimsToOperandDims := [0, 1]
  indexVectorDim := 1
  wf := scatter_S128x128x32x32_S8192x2_S8192x32x32_12_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute, and the arithmetic that joins the kernel's tiling to it.

  With `X` the 8192×4096 activations, `W` the 4096×4096 (in, out) weight matrix and `β` the bias,
      out[a, c] = (∑ₖ X[a, k] · W[k, c]) + β[c]            k over all 4096 inner indices.
  The kernel walks the inner index in four runs of 1024 and keeps a running tile: after `r` runs the tile
  whose corner is (a₀, c₀) holds, at (p, q), the sum over the first `r` runs of X[a₀+p, k] · W[k, c₀+q].
  Over the extended reals a sum may be regrouped into consecutive runs freely (addition is commutative and
  associative there too), so four runs make the full inner sum: no finiteness of the inputs is used.

  Arrays are read at natural-number coordinates (zero outside their extents) so that the runs are plain
  ranges of naturals.
-/
import Idealize.ShloMosaic.PureOps.Ideal
import Idealize.ShloMosaic.Lib.ValueIdx

noncomputable section

namespace Cert.TiledAffine

open Idealize.ShloMosaic Finset

/-- A sum over `B * n` consecutive naturals is the sum of its `n` consecutive runs of length `B`. -/
theorem sum_range_runs {M : Type} [AddCommMonoid M] (g : ℕ → M) (B : ℕ) :
    ∀ n : ℕ, ∑ k ∈ range (B * n), g k = ∑ b ∈ range n, ∑ kk ∈ range B, g (B * b + kk)
  | 0 => by simp
  | n + 1 => by
    rw [Nat.mul_succ, sum_range_add, sum_range_succ, sum_range_runs g B n]

/-- A rank-2 array read at natural coordinates: zero outside its extents. -/
def at2 {n0 n1 : ℕ} (X : (⟨2, ![n0, n1]⟩ : Shape).Idx → EReal) (a b : ℕ) : EReal :=
  if h : a < n0 ∧ b < n1 then X (ValueIdx.ix2 ⟨a, h.1⟩ ⟨b, h.2⟩) else 0

/-- Inside the extents it is the array. -/
theorem at2_ix2 {n0 n1 : ℕ} (X : (⟨2, ![n0, n1]⟩ : Shape).Idx → EReal) (a : Fin n0) (b : Fin n1) :
    at2 X a.val b.val = X (ValueIdx.ix2 a b) := by
  unfold at2
  rw [dif_pos ⟨a.isLt, b.isLt⟩]

theorem at2_coords {n0 n1 : ℕ} (X : (⟨2, ![n0, n1]⟩ : Shape).Idx → EReal) (j : (⟨2, ![n0, n1]⟩ : Shape).Idx) :
    at2 X (j 0).val (j 1).val = X j := by
  unfold at2
  rw [dif_pos ⟨ValueIdx.idx2_lt0 j, ValueIdx.idx2_lt1 j⟩]
  exact congrArg X (ValueIdx.eq_ix2 j).symm

/-- A rank-1 array read at a natural coordinate: zero outside its extent. -/
def at1 {n : ℕ} (v : (⟨1, ![n]⟩ : Shape).Idx → EReal) (a : ℕ) : EReal :=
  if h : a < n then v (ValueIdx.ix1 ⟨a, h⟩) else 0

theorem at1_ix1 {n : ℕ} (v : (⟨1, ![n]⟩ : Shape).Idx → EReal) (a : Fin n) : at1 v a.val = v (ValueIdx.ix1 a) := by
  unfold at1
  rw [dif_pos a.isLt]

/-- THE RESULT: row `a` of `X` against column `c` of `W` over the whole inner axis, plus the bias at `c`. -/
def affine (X : (⟨2, ![8192, 4096]⟩ : Shape).Idx → EReal) (W : (⟨2, ![4096, 4096]⟩ : Shape).Idx → EReal) (β : ℕ → EReal) :
    (⟨2, ![8192, 4096]⟩ : Shape).Idx → EReal :=
  fun j => (∑ k ∈ range 4096, at2 X (j 0).val k * at2 W k (j 1).val) + β (j 1).val

/-- One run of 1024 inner indices, the `b`-th, for the entry (a, c). -/
def run1024 (X : (⟨2, ![8192, 4096]⟩ : Shape).Idx → EReal) (W : (⟨2, ![4096, 4096]⟩ : Shape).Idx → EReal) (a c b : ℕ) : EReal :=
  ∑ kk ∈ range 1024, at2 X a (1024 * b + kk) * at2 W (1024 * b + kk) c

/-- THE RUNNING TILE after `r` runs, corner (a₀, c₀). -/
def tileAfter (X : (⟨2, ![8192, 4096]⟩ : Shape).Idx → EReal) (W : (⟨2, ![4096, 4096]⟩ : Shape).Idx → EReal) (a0 c0 r : ℕ) :
    (⟨2, ![1024, 1024]⟩ : Shape).Idx → EReal :=
  fun y => ∑ b ∈ range r, run1024 X W (a0 + (y 0).val) (c0 + (y 1).val) b

theorem tileAfter_zero (X W) (a0 c0 : ℕ) (y) : tileAfter X W a0 c0 0 y = 0 := by
  unfold tileAfter; rw [sum_range_zero]

/-- One more run is added on the right, as the kernel adds it. -/
theorem tileAfter_succ (X W) (a0 c0 r : ℕ) (y) :
    tileAfter X W a0 c0 (r + 1) y = tileAfter X W a0 c0 r y + run1024 X W (a0 + (y 0).val) (c0 + (y 1).val) r := by
  unfold tileAfter; rw [sum_range_succ]

/-- Four runs are the whole inner sum: the finished tile plus the bias is the result at the tile's entries. -/
theorem tileAfter_four_add (X W) (β : ℕ → EReal) (a0 c0 : ℕ) (y : (⟨2, ![1024, 1024]⟩ : Shape).Idx)
    (j : (⟨2, ![8192, 4096]⟩ : Shape).Idx) (h0 : (j 0).val = a0 + (y 0).val) (h1 : (j 1).val = c0 + (y 1).val) :
    tileAfter X W a0 c0 4 y + β (c0 + (y 1).val) = affine X W β j := by
  have e := sum_range_runs (fun k => at2 X (a0 + (y 0).val) k * at2 W k (c0 + (y 1).val)) 1024 4
  unfold affine tileAfter run1024
  rw [h0, h1]
  exact congrArg (· + β (c0 + (y 1).val)) e.symm

end Cert.TiledAffine

end
-- ==== Proof.Blocks.lean ====
/-
  The blocks the body is handed, as entries of the whole arrays.  The grid is 8 × 4 × 4 with the inner (K) step
  fastest: point t is row-tile t / 16, column-tile (t / 4) mod 4, K-step t mod 4.  At point t the activation block
  is rows 1024·(t/16)… and inner indices 1024·(t mod 4)…; the weight block is inner indices 1024·(t mod 4)… and
  columns 1024·((t/4) mod 4)…; the bias block is columns 1024·((t/4) mod 4)… of the single bias row; the output
  block is rows 1024·(t/16)… and columns 1024·((t/4) mod 4)….
-/
import proofs.«144159_j86182813761997_1_alg».proof.Proof.Gen.KernelIdeal.Frame
import proofs.«144159_j86182813761997_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.TiledAffine

/-- Which block each window is on at point t. -/
theorem block_indices : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The activation window's block of ANY contents of its array. -/
theorem act_read (c : Dev nD) (X : Vec Ideal S8192x4096 .bf16) (t : Fin cfg0.N) (y : S1024x1024.Idx) :
    (((cfg0.win 0).blk t).view.read (Elt Ideal) (X : Buf (Elt Ideal) ((c : Thread nD τ).loc (Pipeline.arrRef spec0 0))) : Vec Ideal S1024x1024 .bf16) y
      = at2 X (1024 * (t.val / 16) + (y 0).val) (1024 * (t.val % 4) + (y 1).val) := by
  obtain ⟨h0, h1, -⟩ := block_indices t
  rw [View.read_apply]
  show X _ = _
  refine (at2_coords X _).symm.trans ?_
  refine congrArg₂ (at2 X) ?_ ?_
  · show win0_0.index t (0 : Fin 2) * 1024 + 1 * (y 0).val = _; rw [h0]; omega
  · show win0_0.index t (1 : Fin 2) * 1024 + 1 * (y 1).val = _; rw [h1]; omega

/-- The weight window's block of any contents of its array. -/
theorem wgt_read (c : Dev nD) (X : Vec Ideal S4096x4096 .bf16) (t : Fin cfg0.N) (y : S1024x1024.Idx) :
    (((cfg0.win 1).blk t).view.read (Elt Ideal) (X : Buf (Elt Ideal) ((c : Thread nD τ).loc (Pipeline.arrRef spec0 1))) : Vec Ideal S1024x1024 .bf16) y
      = at2 X (1024 * (t.val % 4) + (y 0).val) (1024 * (t.val / 4 % 4) + (y 1).val) := by
  obtain ⟨-, -, h0, h1, -⟩ := block_indices t
  rw [View.read_apply]
  show X _ = _
  refine (at2_coords X _).symm.trans ?_
  refine congrArg₂ (at2 X) ?_ ?_
  · show win0_1.index t (0 : Fin 2) * 1024 + 1 * (y 0).val = _; rw [h0]; omega
  · show win0_1.index t (1 : Fin 2) * 1024 + 1 * (y 1).val = _; rw [h1]; omega

/-- The bias window's block of any contents of its array. -/
theorem bias_read (c : Dev nD) (X : Vec Ideal S1x4096 .f32) (t : Fin cfg0.N) (y : S1x1024.Idx) :
    (((cfg0.win 2).blk t).view.read (Elt Ideal) (X : Buf (Elt Ideal) ((c : Thread nD τ).loc (Pipeline.arrRef spec0 2))) : Vec Ideal S1x1024 .f32) y
      = at2 X 0 (1024 * (t.val / 4 % 4) + (y 1).val) := by
  obtain ⟨-, -, -, -, h0, h1, -⟩ := block_indices t
  rw [View.read_apply]
  show X _ = _
  refine (at2_coords X _).symm.trans ?_
  refine congrArg₂ (at2 X) ?_ ?_
  · show win0_2.index t (0 : Fin 2) * 1 + 1 * (y 0).val = _
    have hy : (y 0).val < 1 := (y 0).isLt
    rw [h0]; omega
  · show win0_2.index t (1 : Fin 2) * 1024 + 1 * (y 1).val = _; rw [h1]; omega

variable (m : (ℓ : Loc nD τ sig) → Buf (Elt Ideal) ℓ)

/-- The three arrays the region reads, as it finds them. -/
abbrev actArr (c : Dev nD) : Vec Ideal S8192x4096 .bf16 := V m c (Pipeline.arrRef spec0 0)
abbrev wgtArr (c : Dev nD) : Vec Ideal S4096x4096 .bf16 := V m c (Pipeline.arrRef spec0 1)
abbrev biasArr (c : Dev nD) : Vec Ideal S1x4096 .f32 := V m c (Pipeline.arrRef spec0 2)
/-- Their blocks at a grid point. -/
abbrev actBlk (c : Dev nD) (t : Fin cfg0.N) : Vec Ideal S1024x1024 .bf16 := iblk m c 0 t
abbrev wgtBlk (c : Dev nD) (t : Fin cfg0.N) : Vec Ideal S1024x1024 .bf16 := iblk m c 1 t
abbrev biasBlk (c : Dev nD) (t : Fin cfg0.N) : Vec Ideal S1x1024 .f32 := iblk m c 2 t

theorem actBlk_apply (c : Dev nD) (t : Fin cfg0.N) (y : S1024x1024.Idx) :
    actBlk m c t y = at2 (actArr m c) (1024 * (t.val / 16) + (y 0).val) (1024 * (t.val % 4) + (y 1).val) :=
  act_read c (actArr m c) t y

theorem wgtBlk_apply (c : Dev nD) (t : Fin cfg0.N) (y : S1024x1024.Idx) :
    wgtBlk m c t y = at2 (wgtArr m c) (1024 * (t.val % 4) + (y 0).val) (1024 * (t.val / 4 % 4) + (y 1).val) :=
  wgt_read c (wgtArr m c) t y

theorem biasBlk_apply (c : Dev nD) (t : Fin cfg0.N) (y : S1x1024.Idx) :
    biasBlk m c t y = at2 (biasArr m c) 0 (1024 * (t.val / 4 % 4) + (y 1).val) :=
  bias_read c (biasArr m c) t y

end Cert.KernelIdeal.Tile

end
-- ==== Proof.Pieces.lean ====
/-
  What one grid point leaves behind, as values.  The body keeps a 1024×1024 accumulator tile in scratch.
  At the first K-step of a tile it stores zeros and then adds the step's product; at a middle K-step it adds
  the step's product to what the step before left; at the last K-step it does the same and then writes
  accumulator + bias row to the output block.  Each lemma reads the stores a case performs back as the
  payload of its last covering store, with every whole-buffer load replaced by the buffer's contents.
-/
import proofs.«144159_j86182813761997_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable {F : FTy → Type} [FloatOps F]

/-- The offset of a whole-buffer rectangle. -/
theorem origin2 : (![0, 0] : Fin 2 → Nat) = fun _ => 0 := funext fun a => by fin_cases a <;> rfl

/-- First K-step of a tile: the accumulator ends at (zeros) + (this step's product). -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin2, View.readCov_unit_zero (S := S1024x1024) _ origin2]
  simp only [View.readAt_eq_ld, harg3.read_unread, harg4.read_unread, View.ld_unit_zero (S := S1024x1024) origin2]

/-- Middle K-step: the accumulator ends at (what it held) + (this step's product). -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin2]
  simp only [View.readAt_eq_ld, harg3.read_unread, harg4.read_unread, harg7.read_unread,
    View.ld_unit_zero (S := S1024x1024) origin2]

/-- Last K-step: the accumulator again ends at (what it held) + (this step's product) … -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin2]
  simp only [View.readAt_eq_ld, harg3.read_unread, harg4.read_unread, harg7.read_unread,
    View.ld_unit_zero (S := S1024x1024) origin2]

/-- … and the output block is that accumulator plus the bias row. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin2]
  simp only [View.readCov_unit_zero (S := S1024x1024) _ origin2, View.readAt_eq_ld, harg3.read_unread,
    harg4.read_unread, harg5.read_unread, harg7.read_unread, View.ld_unit_zero (S := S1024x1024) origin2,
    View.ld_unit_zero (S := S1x1024) origin2]

end Cert.KernelIdeal.Tile

end
-- ==== Proof.Payloads.lean ====
/-
  The three stored values of the kernel body, read entry by entry over the extended reals.
  The reset value is zero everywhere.  The accumulation adds, to what the tile held at (p, q), the inner
  product of row p of the left 1024×1024 block with column q of the right one (the matrix unit started from a
  zero accumulator is that plain sum; the changes of shape around it are between equal shapes).  The epilogue
  adds the bias row, a 1×1024 vector repeated down the 1024 rows, so its entry at (p, q) is the row's entry q.
-/
import proofs.«144159_j86182813761997_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Tile

open Cert.KernelIdeal Cert.KernelIdeal.Gen ValueIdx

/-- The reset stores zero at every entry. -/
theorem reset_apply (j : S1024x1024.Idx) : k0_pay1 (F := Ideal) j = 0 := by
  unfold k0_pay1
  simp only [shapeCast_self]
  show Ideal.ofBits .f32 0x00000000#32 = 0
  exact Ideal.ofBits_zero_f32

theorem lhs_tile_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_tile_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_tile_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_tile_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product from a zero accumulator, at (p, q): row p against column q. -/
theorem product_apply (l r : FVec Ideal S1024x1024 .bf16) (p q : Fin 1024) :
    matmul (F := Ideal) (φ₁ := .bf16) (φ₂ := .bf16) dot_S1024x1024_S1024x1024_S1024x1024_1_0_0_1_n_n none l r
        (constant (F := Ideal) S1024x1024 .f32 0x00000000#32) (ix2 p q)
      = ∑ k : Fin 1024, l (ix2 p k) * r (ix2 k q) := by
  show FloatOps.matmul (F := Ideal) (φ₁ := .bf16) (φ₂ := .bf16) dot_S1024x1024_S1024x1024_S1024x1024_1_0_0_1_n_n none l r
    (constant (F := Ideal) S1024x1024 .f32 0x00000000#32) (ix2 p q) = _
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_tile_0 _ _
    | ⟨1, _⟩ => exact (lhs_tile_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_tile_0 _ _).trans hk
    | ⟨1, _⟩ => exact rhs_tile_1 _ _)
  rw [el, er]

/-- The accumulation at (p, q): what the tile held there plus the step's inner product. -/
theorem accumulate_apply (acc : Vec Ideal S1024x1024 .f32) (l r : Vec Ideal S1024x1024 .bf16) (p q : Fin 1024) :
    k0_pay2 (F := Ideal) acc l r (ix2 p q) = acc (ix2 p q) + ∑ k : Fin 1024, l (ix2 p k) * r (ix2 k q) := by
  unfold k0_pay2
  simp only [shapeCast_self]
  rw [addf_apply]
  exact congrArg (acc (ix2 p q) + ·) (product_apply l r p q)

/-- The epilogue at (p, q): the tile's entry plus the bias row's entry q. -/
theorem epilogue_apply (acc : Vec Ideal S1024x1024 .f32) (row : Vec Ideal S1x1024 .f32) (p q : Fin 1024) :
    k0_pay3 (F := Ideal) acc row (ix2 p q) = acc (ix2 p q) + row (ix2 0 q) := by
  unfold k0_pay3
  simp only [shapeCast_self]
  rw [addf_apply]
  refine congrArg (acc (ix2 p q) + ·) ?_
  exact broadcastTo_apply row broadcasts_S1x1024_S1024x1024 (ix2 p q) (ix2 0 q) (fun a => by
    match a with
    | ⟨0, _⟩ => rfl
    | ⟨1, _⟩ => rfl)

end Cert.KernelIdeal.Tile

end
-- ==== Proof.Accum.lean ====
/-
  The running tile, point by point.  Within a tile the four K-steps are consecutive grid points 4u, 4u+1, 4u+2,
  4u+3 with the same row-tile and column-tile.  By induction on the point: after point n the scratch holds the
  sum of the first (n mod 4) + 1 runs of 1024 inner indices for the tile's corner.  The first step starts from
  the stored zeros (0 + first run); every later step adds its run to what the step before left.  After the
  fourth step the output block is that finished tile plus the bias row.
-/
import proofs.«144159_j86182813761997_1_alg».proof.Proof.Gen.KernelIdeal.Frame
import proofs.«144159_j86182813761997_1_alg».proof.Proof.Spec
import proofs.«144159_j86182813761997_1_alg».proof.Proof.Pieces
import proofs.«144159_j86182813761997_1_alg».proof.Proof.Payloads
import proofs.«144159_j86182813761997_1_alg».proof.Proof.Blocks

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.TiledAffine

variable (m : (ℓ : Loc nD τ sig) → Buf (Elt Ideal) ℓ)

/-- One K-step, at point t whose step number is r: a tile holding r runs, after adding the product of the point's
    activation and weight blocks, holds r + 1 runs. -/
theorem accumulate_step (c : Dev nD) (t : Fin cfg0.N) (acc : Vec Ideal S1024x1024 .f32) (r : ℕ) (hr : t.val % 4 = r)
    (hacc : acc = tileAfter (actArr m c) (wgtArr m c) (1024 * (t.val / 16)) (1024 * (t.val / 4 % 4)) r) :
    k0_pay2 (F := Ideal) acc (actBlk m c t) (wgtBlk m c t)
      = tileAfter (actArr m c) (wgtArr m c) (1024 * (t.val / 16)) (1024 * (t.val / 4 % 4)) (r + 1) := by
  subst hr
  funext y
  obtain ⟨p, q, rfl⟩ : ∃ (p q : Fin 1024), y = ValueIdx.ix2 p q := ⟨y 0, y 1, ValueIdx.eq_ix2 y⟩
  rw [accumulate_apply, tileAfter_succ, hacc]
  refine congrArg (tileAfter (actArr m c) (wgtArr m c) (1024 * (t.val / 16)) (1024 * (t.val / 4 % 4)) (t.val % 4) (ValueIdx.ix2 p q) + ·) ?_
  refine Eq.trans ?_ (Fin.sum_univ_eq_sum_range (fun kk => at2 (actArr m c) (1024 * (t.val / 16) + p.val) (1024 * (t.val % 4) + kk)
    * at2 (wgtArr m c) (1024 * (t.val % 4) + kk) (1024 * (t.val / 4 % 4) + q.val)) 1024)
  refine Finset.sum_congr rfl fun k _ => ?_
  exact congrArg₂ (· * ·) (actBlk_apply m c t (ValueIdx.ix2 p k)) (wgtBlk_apply m c t (ValueIdx.ix2 k q))

/-- The stored zeros are the tile with no run in it. -/
theorem reset_eq (X : (⟨2, ![8192, 4096]⟩ : Shape).Idx → EReal) (W : (⟨2, ![4096, 4096]⟩ : Shape).Idx → EReal) (a0 c0 : ℕ) :
    k0_pay1 (F := Ideal) = tileAfter X W a0 c0 0 :=
  funext fun y => (reset_apply y).trans (tileAfter_zero X W a0 c0 y).symm

/-- What the scratch holds after point n. -/
theorem scratch_after (c : Dev nD) : ∀ (n : ℕ) (h : n < cfg0.N),
    (outsAt0 m c n h).2 = tileAfter (actArr m c) (wgtArr m c) (1024 * (n / 16)) (1024 * (n / 4 % 4)) (n % 4 + 1) := by
  intro n
  induction n with
  | zero =>
    intro h
    rw [outsAt0_A m c ⟨0, h⟩ rfl (show ¬(0 : ℕ) % 4 = 3 by decide)]
    dsimp only
    exact (scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (actBlk m c ⟨0, h⟩) (wgtBlk m c ⟨0, h⟩) (biasBlk m c ⟨0, h⟩)).trans
      (accumulate_step m c ⟨0, h⟩ (k0_pay1 (F := Ideal)) 0 rfl (reset_eq _ _ _ _))
  | succ n ih =>
    intro h
    have hN : n + 1 < 128 := lt_of_lt_of_eq h (show cfg0.N = 128 from N_0)
    by_cases h0 : (n + 1) % 4 = 0
    · have h1 : ¬(n + 1) % 4 = 3 := by omega
      rw [outsAt0_A m c ⟨n + 1, h⟩ h0 h1]
      dsimp only
      have e3 : (n + 1) % 4 + 1 = 0 + 1 := by omega
      rw [e3]
      exact (scratch_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (actBlk m c ⟨n + 1, h⟩) (wgtBlk m c ⟨n + 1, h⟩) (biasBlk m c ⟨n + 1, h⟩)).trans
        (accumulate_step m c ⟨n + 1, h⟩ (k0_pay1 (F := Ideal)) 0 h0 (reset_eq _ _ _ _))
    · have ihn := ih (Nat.lt_of_succ_lt h)
      have e1 : n / 16 = (n + 1) / 16 := by omega
      have e2 : n / 4 % 4 = (n + 1) / 4 % 4 := by omega
      have e3 : n % 4 + 1 = (n + 1) % 4 := by omega
      rw [e1, e2, e3] at ihn
      by_cases h1 : (n + 1) % 4 = 3
      · rw [outsAt0_C m c ⟨n + 1, h⟩ h0 h1]
        dsimp only
        exact (scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (actBlk m c ⟨n + 1, h⟩) (wgtBlk m c ⟨n + 1, h⟩) (biasBlk m c ⟨n + 1, h⟩) _).trans
          (accumulate_step m c ⟨n + 1, h⟩ _ ((n + 1) % 4) rfl ihn)
      · rw [outsAt0_B m c ⟨n + 1, h⟩ h0 h1]
        dsimp only
        exact (scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (actBlk m c ⟨n + 1, h⟩) (wgtBlk m c ⟨n + 1, h⟩) (biasBlk m c ⟨n + 1, h⟩) _).trans
          (accumulate_step m c ⟨n + 1, h⟩ _ ((n + 1) % 4) rfl ihn)

/-- What a last K-step leaves in the output block: the finished tile plus the bias row. -/
theorem out_after (c : Dev nD) (t : Fin cfg0.N) (h3 : t.val % 4 = 3) :
    (outsAt0 m c t.val t.isLt).1 = fun y => tileAfter (actArr m c) (wgtArr m c) (1024 * (t.val / 16)) (1024 * (t.val / 4 % 4)) 4 y
      + at2 (biasArr m c) 0 (1024 * (t.val / 4 % 4) + (y 1).val) := by
  have hN : t.val < 128 := lt_of_lt_of_eq t.isLt (show cfg0.N = 128 from N_0)
  have h0 : ¬t.val % 4 = 0 := by omega
  have hprev := scratch_after m c (t.val - 1) (Nat.lt_of_le_of_lt (Nat.sub_le _ _) t.isLt)
  have e1 : (t.val - 1) / 16 = t.val / 16 := by omega
  have e2 : (t.val - 1) / 4 % 4 = t.val / 4 % 4 := by omega
  have e3 : (t.val - 1) % 4 + 1 = 3 := by omega
  rw [e1, e2, e3] at hprev
  have hacc := accumulate_step m c t _ 3 h3 hprev
  rw [outsAt0_C m c t h0 h3]
  dsimp only
  refine (out_last c (grid0.coords t) (ms0_0 t) (hs0_0 t) (ms0_1 t) (hs0_1 t) (ms0_2 t) (hs0_2 t) (ms0_3 t) (hs0_3 t) scM0_0 (Memref.isWhole_whole _) _ _ (actBlk m c t) (wgtBlk m c t) (biasBlk m c t) _).trans ?_
  rw [hacc]
  funext y
  obtain ⟨p, q, rfl⟩ : ∃ (p q : Fin 1024), y = ValueIdx.ix2 p q := ⟨y 0, y 1, ValueIdx.eq_ix2 y⟩
  rw [epilogue_apply]
  exact congrArg (tileAfter (actArr m c) (wgtArr m c) (1024 * (t.val / 16)) (1024 * (t.val / 4 % 4)) 4 (ValueIdx.ix2 p q) + ·)
    (biasBlk_apply m c t (ValueIdx.ix2 0 q))

end Cert.KernelIdeal.Tile

end
-- ==== Proof.KernelValue.lean ====
/-
  The kernel's result array.  Only a tile's last K-step writes its output block back, and what it writes is the
  block of the result function at the tile's corner: finished tile plus bias.  The 8 × 4 output blocks tile the
  8192 × 4096 array — entry (a, c) lies in the block written at the point with row-tile a / 1024, column-tile
  c / 1024 and K-step 3 — so after the run the array is the result function everywhere.
-/
import proofs.«144159_j86182813761997_1_alg».proof.Proof.Gen.KernelIdeal.Value
import proofs.«144159_j86182813761997_1_alg».proof.Proof.Spec
import proofs.«144159_j86182813761997_1_alg».proof.Proof.Blocks
import proofs.«144159_j86182813761997_1_alg».proof.Proof.Accum
import Idealize.ShloMosaic.Lib.Pipeline.Value

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.TiledAffine

variable (m : (ℓ : Loc nD τ sig) → Buf (Elt Ideal) ℓ) (ρ : Dev nD → PrngReg)

/-- The result function of the operand arrays as the region finds them. -/
abbrev outArr (c : Dev nD) : Vec Ideal S8192x4096 .f32 :=
  affine (actArr m c) (wgtArr m c) (fun q => at2 (biasArr m c) 0 q)

/-- What a last K-step writes back is its block of the result function. -/
theorem flushed_eq (c : Dev nD) (t : Fin cfg0.N) (hf : (cfg0.win 3).flush t = true) :
    (dats m 0 c).flushed 3 t = ((cfg0.win 3).blk t).view.read (Elt Ideal) (outArr m c) := by
  have h3 : t.val % 4 = 3 := (flush0_3 t).mp hf
  obtain ⟨-, -, -, -, -, -, h0, h1⟩ := block_indices t
  rw [Value.flushed3, out_after m c t h3]
  funext y
  rw [View.read_apply]
  show tileAfter (actArr m c) (wgtArr m c) (1024 * (t.val / 16)) (1024 * (t.val / 4 % 4)) 4 y
      + at2 (biasArr m c) 0 (1024 * (t.val / 4 % 4) + (y 1).val) = outArr m c (((cfg0.win 3).blk t).view.emb y)
  exact tileAfter_four_add (actArr m c) (wgtArr m c) (fun q => at2 (biasArr m c) 0 q) _ _ y _
    (by show win0_3.index t (0 : Fin 2) * 1024 + 1 * (y 0).val = _; rw [h0]; omega)
    (by show win0_3.index t (1 : Fin 2) * 1024 + 1 * (y 1).val = _; rw [h1]; omega)

/-- An entry is in point t's output block iff each coordinate is in the block's range. -/
theorem mem_out_block (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v21).slice (win0_3.rect t)).set ↔ _
  rw [View.set_slice_whole, Rect.mem_set_unit]
  exact Iff.rfl

/-- Every entry is in the block some last K-step writes back. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, h0, h1⟩ := block_indices t
  refine ⟨t, (flush0_3 t).mpr (by omega), ?_⟩
  rw [mem_out_block]
  intro a
  match a with
  | ⟨0, _⟩ =>
    show win0_3.index t (0 : Fin 2) * 1024 ≤ (i 0).val ∧ (i 0).val < win0_3.index t (0 : Fin 2) * 1024 + 1024
    rw [h0]; omega
  | ⟨1, _⟩ =>
    show win0_3.index t (1 : Fin 2) * 1024 ≤ (i 1).val ∧ (i 1).val < win0_3.index t (1 : Fin 2) * 1024 + 1024
    rw [h1]; omega

/-- The result array after the run. -/
theorem final_out (c : Dev nD) : (dats m 0 c).arrAt 3 cfg0.N = outArr m c :=
  (dats m 0 c).arrAt_eq_of_cover 3 (outArr m c) (flushed_eq m c) cover

end Cert.KernelIdeal.Tile

end
-- ==== Proof.Arrays.lean ====
/-
  What the region finds in its three operand arrays, as functions of the program's arguments.  Before the call the
  host scatters the 32×32 weight tiles into a 128×128 grid of tiles, lays that grid out as the 4096×4096 (out, in)
  matrix, transposes it to (in, out), and narrows it and the activations to bf16, which over the extended reals
  changes nothing; the bias vector becomes a single row.  The reference builds the very same (in, out) matrix by
  the very same operations, so the kernel's weight operand is the reference's transposed weight, entry for entry.
-/
import proofs.«144159_j86182813761997_1_alg».proof.Proof.Gen.KernelIdeal.Frame
import proofs.«144159_j86182813761997_1_alg».proof.Proof.Gen.ReferenceIdeal.Read
import proofs.«144159_j86182813761997_1_alg».proof.Proof.Spec
import proofs.«144159_j86182813761997_1_alg».proof.Proof.Blocks
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.TiledAffine Idealize.ShloMosaic.StableHlo

variable (m : (ℓ : Loc nD τ sig) → Buf (Elt Ideal) ℓ)

/-- The activations reach the region as given. -/
theorem actArr_eq (c : Dev nD) :
    (actArr m c : S8192x4096.Idx → EReal) = (m ((c : Thread nD τ).loc main_arg0) : S8192x4096.Idx → EReal) := by
  show (V m c main_v18 : S8192x4096.Idx → EReal) = _
  have e : (V m c main_v18 : S8192x4096.Idx → EReal)
      = truncf (F := Ideal) .bf16 (m ((c : Thread nD τ).loc main_arg0) : FVec Ideal S8192x4096 .f32) bitsLt_bf16_f32 := by
    dsimp only [V, hostOps0]; after_results <;> rfl
  exact e

set_option maxHeartbeats 4000000 in
/-- The weight operand is the reference's (in, out) matrix of the same arguments. -/
theorem wgtArr_eq (c : Dev nD) :
    (wgtArr m c : S4096x4096.Idx → EReal)
      = Cert.ReferenceIdeal.Read.val_main_v17 (F := Ideal) (m ((c : Thread nD τ).loc main_arg1)) (m ((c : Thread nD τ).loc main_arg3)) (m ((c : Thread nD τ).loc main_arg4)) := by
  show (V m c main_v19 : S4096x4096.Idx → EReal) = _
  have e : (V m c main_v19 : S4096x4096.Idx → EReal)
      = truncf (F := Ideal) .bf16 (Cert.ReferenceIdeal.Read.val_main_v17 (F := Ideal) (m ((c : Thread nD τ).loc main_arg1)) (m ((c : Thread nD τ).loc main_arg3)) (m ((c : Thread nD τ).loc main_arg4)) : FVec Ideal S4096x4096 .f32) bitsLt_bf16_f32 := by
    dsimp only [V, hostOps0]; after_results <;> rfl
  refine e.trans ?_
  funext i
  exact ValueIdx.truncf_apply _ bitsLt_bf16_f32 i

/-- The bias operand is the bias vector as one row. -/
theorem biasArr_at (c : Dev nD) (q : ℕ) :
    at2 (biasArr m c) 0 q = at1 (m ((c : Thread nD τ).loc main_arg2) : S4096.Idx → EReal) q := by
  have e : (V m c main_v20 : S1x4096.Idx → EReal)
      = shapeCast S1x4096 (m ((c : Thread nD τ).loc main_arg2) : S4096.Idx → EReal) shapeCasts_S4096_S1x4096 := by
    dsimp only [V, hostOps0]; after_results <;> rfl
  by_cases h : q < 4096
  · unfold at2 at1
    rw [dif_pos ⟨Nat.one_pos, h⟩, dif_pos h]
    show (V m c main_v20 : S1x4096.Idx → EReal) _ = _
    rw [e]
    refine (shapeCast_addUnit_apply ![4096] (m ((c : Thread nD τ).loc main_arg2) : S4096.Idx → EReal) shapeCasts_S4096_S1x4096 _).trans ?_
    exact congrArg _ (funext fun a => by match a with | ⟨0, _⟩ => rfl)
  · unfold at2 at1
    rw [dif_neg (fun hh => h hh.2), dif_neg h]

end Cert.KernelIdeal.Tile

end
-- ==== Proof.KernelRun.lean ====
/-
  The kernel's run in terms of the program's arguments: the operand arrays the region finds are the activations
  as given, the reference's (in, out) weight matrix of the same tiles and positions, and the bias as a row; so the
  result array ends at (∑ₖ x[a,k]·Wᵀ[k,c]) + bias[c], and the arguments are unchanged.
-/
import proofs.«144159_j86182813761997_1_alg».proof.Proof.Gen.KernelIdeal.Value
import proofs.«144159_j86182813761997_1_alg».proof.Proof.Gen.ReferenceIdeal.Read
import proofs.«144159_j86182813761997_1_alg».proof.Proof.Spec
import proofs.«144159_j86182813761997_1_alg».proof.Proof.Blocks
import proofs.«144159_j86182813761997_1_alg».proof.Proof.KernelValue
import proofs.«144159_j86182813761997_1_alg».proof.Proof.Arrays

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.TiledAffine

variable (m : (ℓ : Loc nD τ sig) → Buf (Elt Ideal) ℓ) (ρ : Dev nD → PrngReg)

/-- In terms of the program's arguments: activations as given, the reference's (in, out) weight matrix, the bias. -/
theorem outArr_eq (c : Dev nD) :
    outArr m c = affine (m ((c : Thread nD τ).loc main_arg0))
      (Cert.ReferenceIdeal.Read.val_main_v17 (F := Ideal) (m ((c : Thread nD τ).loc main_arg1)) (m ((c : Thread nD τ).loc main_arg3)) (m ((c : Thread nD τ).loc main_arg4)))
      (at1 (m ((c : Thread nD τ).loc main_arg2) : S4096.Idx → EReal)) := by
  show affine (actArr m c : S8192x4096.Idx → EReal) (wgtArr m c : S4096x4096.Idx → EReal) (fun q => at2 (biasArr m c) 0 q) = _
  rw [actArr_eq m c, wgtArr_eq m c]
  exact congrArg (affine _ _) (funext fun q => biasArr_at m c q)

/-- The kernel's run: the result array at the result function of the arguments, the arguments unchanged. -/
theorem run : θ_run defs (onTc (τ := τ) (main (F := Ideal))) ⟨m, fun _ => 0, ρ⟩ fun r => ∀ c : Dev nD,
      r.2.mem ((c : Thread nD τ).loc main_v21) = affine (m ((c : Thread nD τ).loc main_arg0))
        (Cert.ReferenceIdeal.Read.val_main_v17 (F := Ideal) (m ((c : Thread nD τ).loc main_arg1)) (m ((c : Thread nD τ).loc main_arg3)) (m ((c : Thread nD τ).loc main_arg4)))
        (at1 (m ((c : Thread nD τ).loc main_arg2) : S4096.Idx → EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final_out m c).trans (outArr_eq m c)), (h c).2⟩)
    (Value.run_blocks m ρ)

end Cert.KernelIdeal.Tile

end
-- ==== Proof.Reference.lean ====
/-
  The reference, entry by entry: its result at (a, c) is the sum over the inner index k of x[a, k] times its
  (in, out) weight matrix at (k, c), plus bias[c] — the two broadcasts of the bias only repeat it down the rows.
-/
import proofs.«144159_j86182813761997_1_alg».proof.Proof.Gen.ReferenceIdeal.Read
import proofs.«144159_j86182813761997_1_alg».proof.Proof.Spec

noncomputable section

open Idealize.ShloMosaic Idealize.ShloMosaic.TcCoe Idealize.SL.Sem
open Idealize.ShloMosaic.Pipeline (Dat)

namespace Cert.ReferenceIdeal.Dense

open Cert.ReferenceIdeal Cert.TiledAffine

theorem result_eq (x0 : S8192x4096.Idx → EReal) (x1 : S8192x32x32.Idx → EReal) (x2 : S4096.Idx → EReal) (x3 x4 : S8192.Idx → BitVec 32) :
    Read.val_main_v21 (F := Ideal) x0 x1 x2 x3 x4 = affine x0 (Read.val_main_v17 (F := Ideal) x1 x3 x4) (at1 x2) := by
  funext i
  rw [Read.val_main_v21_apply, Read.val_main_v18_apply, Read.val_main_v20_apply, Read.val_main_v19_apply]
  unfold affine
  refine congrArg₂ (· + ·) ?_ ?_
  · refine Eq.trans ?_ (Fin.sum_univ_eq_sum_range (fun k => at2 x0 (i 0).val k * at2 (Read.val_main_v17 (F := Ideal) x1 x3 x4) k (i 1).val) 4096)
    refine Finset.sum_congr rfl fun k _ => ?_
    exact congrArg₂ (· * ·) (at2_coords x0 (Read.lidx_main_v18 i k)).symm
      (at2_coords (Read.val_main_v17 (F := Ideal) x1 x3 x4) (Read.ridx_main_v18 i k)).symm
  · unfold at1
    rw [dif_pos (ValueIdx.idx2_lt1 i)]
    exact congrArg x2 (funext fun a => by match a with | ⟨0, _⟩ => rfl)

end Cert.ReferenceIdeal.Dense

end
-- ==== Proof.lean ====
/-
  Block-sparse linear layer: out = x · Wᵀ + bias, with the 4096×4096 weight W given as 8192 tiles of 32×32 placed at
  (block_row, block_col) positions.

  Both programs first build the dense (in, out) matrix Wᵀ from the tiles by the same host operations (scatter the
  tiles into a 128×128 grid of tiles, interleave to 4096×4096, transpose); they differ only in how they multiply.
  The reference contracts the whole inner axis at once and adds the bias.  The kernel narrows both operands to
  bf16 — the identity over the extended reals — and tiles the product 8 × 4 × 4: for each 1024×1024 output tile it
  walks the inner axis in four runs of 1024, adding each run's product to a running tile that starts at zero, and
  after the fourth run writes running tile + bias row.  Since a sum over 4096 inner indices is the sum of its four
  consecutive runs (addition of extended reals is commutative and associative, infinities included), both end at
      out[a, c] = (∑ₖ x[a, k] · Wᵀ[k, c]) + bias[c],
  the same function of arguments that agree.  No finiteness of the inputs is needed for this, and the kernel's
  idealization rewrote nothing, so that conjunct is trivial.  The three frames are the generated ones; the
  reference's is its run with the value dropped.
-/
import proofs.«144159_j86182813761997_1_alg».proof.Defs
import proofs.«144159_j86182813761997_1_alg».proof.Proof.Gen.Kernel
import proofs.«144159_j86182813761997_1_alg».proof.Proof.Gen.Kernel.Skeleton
import proofs.«144159_j86182813761997_1_alg».proof.Proof.Gen.Kernel.Launch
import proofs.«144159_j86182813761997_1_alg».proof.Proof.Gen.Kernel.Points
import proofs.«144159_j86182813761997_1_alg».proof.Proof.Gen.Kernel.Frame
import proofs.«144159_j86182813761997_1_alg».proof.Proof.Gen.KernelIdeal
import proofs.«144159_j86182813761997_1_alg».proof.Proof.Gen.KernelIdeal.Skeleton
import proofs.«144159_j86182813761997_1_alg».proof.Proof.Gen.KernelIdeal.Launch
import proofs.«144159_j86182813761997_1_alg».proof.Proof.Gen.KernelIdeal.Points
import proofs.«144159_j86182813761997_1_alg».proof.Proof.Gen.KernelIdeal.Frame
import proofs.«144159_j86182813761997_1_alg».proof.Proof.Gen.ReferenceIdeal
import proofs.«144159_j86182813761997_1_alg».proof.Proof.Gen.Pre_finite_inputs
import proofs.«144159_j86182813761997_1_alg».proof.Proof.Gen.KernelIdeal.Value
import proofs.«144159_j86182813761997_1_alg».proof.Proof.Gen.ReferenceIdeal.Run
import proofs.«144159_j86182813761997_1_alg».proof.Proof.Gen.ReferenceIdeal.Read
import proofs.«144159_j86182813761997_1_alg».proof.Proof.KernelRun
import proofs.«144159_j86182813761997_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at (∑ₖ x[a,k]·Wᵀ[k,c]) + bias[c] of arguments that agree. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Dense.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
